-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x128 : Shape := ⟨2, ![2000, 128]⟩
abbrev S2000x64 : Shape := ⟨2, ![2000, 64]⟩
abbrev S1700000x64 : Shape := ⟨2, ![1700000, 64]⟩
abbrev S1x64 : Shape := ⟨2, ![1, 64]⟩
abbrev S100000x16 : Shape := ⟨2, ![100000, 16]⟩
abbrev S2000x16 : Shape := ⟨2, ![2000, 16]⟩
abbrev S1700000x16 : Shape := ⟨2, ![1700000, 16]⟩
abbrev S1x16 : Shape := ⟨2, ![1, 16]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x16, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x16, .f32⟩
  | .hbm, ⟨75, _⟩ => ⟨S1700000x1, .f32⟩
  | .hbm, ⟨76, _⟩ => ⟨S1700000x16, .f32⟩
  | .hbm, ⟨77, _⟩ => ⟨S1700000x16, .f32⟩
  | .hbm, ⟨78, _⟩ => ⟨S_, .f32⟩
  | .hbm, ⟨79, _⟩ => ⟨S100000x16, .f32⟩
  | .hbm, ⟨80, _⟩ => ⟨S1700000x1, .i32⟩
  | .hbm, ⟨81, _⟩ => ⟨S100000x16, .f32⟩
  | .hbm, ⟨82, _⟩ => ⟨S1x16, .f32⟩
  | .hbm, ⟨83, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S2000x16, .f32⟩
  | .local _ .vmem, ⟨17, _⟩ => ⟨S1x16, .f32⟩
  | .local _ .vmem, ⟨18, _⟩ => ⟨S2000x16, .f32⟩
  | .local _ .vmem, ⟨19, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x16_S2000x16_1_0_0_1_n_n_wf : DotDims.WF S2000x64 S64x16 S2000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S100000x16.size a
  hwx3_2 : ∀ i : grid3.Coords, EltTy.bits .f32 = 32 ∨ (Rect.block (s := S100000x16) S2000x16.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S100000x16, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x16, .f32⟩
  | .hbm, ⟨112, _⟩ => ⟨S1700000x1, .f32⟩
  | .hbm, ⟨113, _⟩ => ⟨S1700000x16, .f32⟩
  | .hbm, ⟨114, _⟩ => ⟨S1700000x16, .f32⟩
  | .hbm, ⟨115, _⟩ => ⟨S_, .f32⟩
  | .hbm, ⟨116, _⟩ => ⟨S100000x16, .f32⟩
  | .hbm, ⟨117, _⟩ => ⟨S1700000x1, .i32⟩
  | .hbm, ⟨118, _⟩ => ⟨S100000x16, .f32⟩
  | .hbm, ⟨119, _⟩ => ⟨S1x16, .f32⟩
  | .hbm, ⟨120, _⟩ => ⟨S100000x16, .f32⟩
  | .hbm, ⟨121, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.HostStages.lean ====
import proofs.«161350_j7997229105681_1_alg».proof.Proof.Gen.KernelIdeal.Frame
import Idealize.ShloMosaic.Lib.StableHlo.Run

/-!
# The host operations between the four regions

Around its four kernel regions the program runs the graph part of the two layers on the host. From the edge list
`e` (two rows of 1600000 node numbers) it makes the two endpoint lists with the self loops appended, the degree of
every node as a scatter-add of ones over the target endpoints, the inverse square root of the degree where it is
positive and zero elsewhere, and per edge the product of the two endpoints' factors (the edge's weight). Each layer
then gathers the projected features at the source endpoints (a negative node number wrapped by the node count),
scales each gathered row by its edge's weight, and scatter-adds the rows over the target endpoints.

Here these are named as functions of the edge list and of the projected features, and every buffer a region or a
later stretch reads is computed, at each boundary between a stretch and a region, from the launch contents.
-/

set_option maxRecDepth 16384

noncomputable section

namespace Cert.KernelIdeal.Gcn

open Cert.KernelIdeal Cert.KernelIdeal.Gen Idealize.ShloMosaic Idealize.ShloMosaic.TcCoe Idealize.SL.Sem Idealize.ShloMosaic.StableHlo

variable {F : FTy → Type} [FloatOps F]

/-! ## The graph part, as functions -/

/-- The source endpoints: the edge list's first row, then every node once (its self loop). -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The target endpoints: the edge list's second row, then every node once. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number wrapped by the node count (what an indexed read does to its indices first). -/
def wrapOf (s : (⟨S1700000, .i32⟩ : BufTy).Contents (Elt F)) : (⟨S1700000, .i32⟩ : BufTy).Contents (Elt F) :=
  select (cmpi .slt s (broadcastInDim S1700000 ![] bcast_S_S1700000 (constantI S_ 32 0#32)))
    (addi s (broadcastInDim S1700000 ![] bcast_S_S1700000 (constantI S_ 32 100000#32))) s

/-- Every node's degree: ones scatter-added over the target endpoints. -/
def degOf (e : (⟨S2x1600000, .i32⟩ : BufTy).Contents (Elt F)) : (⟨S100000, .f32⟩ : BufTy).Contents (Elt F) :=
  Host.scatterAdd (F := F) scatter_S100000_S1700000x1_S1700000_n_0_0_1
    (broadcastInDim S100000 ![] bcast_S_S100000 (constant (F := F) S_ .f32 0x00000000#32))
    (broadcastInDim S1700000x1 ![0] bcast_S1700000_S1700000x1_0 (dstOf (F := F) e))
    (broadcastInDim S1700000 ![] bcast_S_S1700000 (constant (F := F) S_ .f32 0x3F800000#32))

/-- The inverse square root of the degree where the degree is positive, zero elsewhere. -/
def dinvOf (e : (⟨S2x1600000, .i32⟩ : BufTy).Contents (Elt F)) : (⟨S100000, .f32⟩ : BufTy).Contents (Elt F) :=
  select (cmpf (F := F) .ogt (degOf e) (broadcastInDim S100000 ![] bcast_S_S100000 (constant (F := F) S_ .f32 0x00000000#32)))
    (Host.rsqrt (degOf e))
    (broadcastInDim S100000 ![] bcast_S_S100000 (id (constant (F := F) S_ .f32 0x00000000#32)))

/-- The edges' weights: the product of the two endpoints' factors. -/
def normOf (e : (⟨S2x1600000, .i32⟩ : BufTy).Contents (Elt F)) : (⟨S1700000, .f32⟩ : BufTy).Contents (Elt F) :=
  mulf
    (Host.gather gather_S100000_S1700000x1_S1700000_n_0_n_n_0_1_1 (dinvOf e) (broadcastInDim S1700000x1 ![0] bcast_S1700000_S1700000x1_0 (wrapOf (F := F) (srcOf (F := F) e))))
    (Host.gather gather_S100000_S1700000x1_S1700000_n_0_n_n_0_1_1 (dinvOf e) (broadcastInDim S1700000x1 ![0] bcast_S1700000_S1700000x1_0 (wrapOf (F := F) (dstOf (F := F) e))))

/-- The first layer's aggregation of 64-wide rows `h`: gather at the sources, scale by the weights, scatter-add over the targets. -/
def agg64 (e : (⟨S2x1600000, .i32⟩ : BufTy).Contents (Elt F)) (h : (⟨S100000x64, .f32⟩ : BufTy).Contents (Elt F)) : (⟨S100000x64, .f32⟩ : BufTy).Contents (Elt F) :=
  Host.scatterAdd (F := F) scatter_S100000x64_S1700000x1_S1700000x64_1_0_0_1
    (broadcastInDim S100000x64 ![] bcast_S_S100000x64 (constant (F := F) S_ .f32 0x00000000#32))
    (broadcastInDim S1700000x1 ![0] bcast_S1700000_S1700000x1_0 (dstOf (F := F) e))
    (mulf
      (Host.gather gather_S100000x64_S1700000x1_S1700000x64_1_0_n_n_0_1_164 h (broadcastInDim S1700000x1 ![0] bcast_S1700000_S1700000x1_0 (wrapOf (F := F) (srcOf (F := F) e))))
      (broadcastInDim S1700000x64 ![0, 1] bcast_S1700000x1_S1700000x64_0_1 (broadcastInDim S1700000x1 ![0] bcast_S1700000_S1700000x1_0 (normOf e))))

/-- The second layer's aggregation of 16-wide rows `h`. -/
def agg16 (e : (⟨S2x1600000, .i32⟩ : BufTy).Contents (Elt F)) (h : (⟨S100000x16, .f32⟩ : BufTy).Contents (Elt F)) : (⟨S100000x16, .f32⟩ : BufTy).Contents (Elt F) :=
  Host.scatterAdd (F := F) scatter_S100000x16_S1700000x1_S1700000x16_1_0_0_1
    (broadcastInDim S100000x16 ![] bcast_S_S100000x16 (constant (F := F) S_ .f32 0x00000000#32))
    (broadcastInDim S1700000x1 ![0] bcast_S1700000_S1700000x1_0 (dstOf (F := F) e))
    (mulf
      (Host.gather gather_S100000x16_S1700000x1_S1700000x16_1_0_n_n_0_1_116 h (broadcastInDim S1700000x1 ![0] bcast_S1700000_S1700000x1_0 (wrapOf (F := F) (srcOf (F := F) e))))
      (broadcastInDim S1700000x16 ![0, 1] bcast_S1700000x1_S1700000x16_0_1 (broadcastInDim S1700000x1 ![0] bcast_S1700000_S1700000x1_0 (normOf e))))

/-! ## The contents at the first region's entry -/

variable (m : (ℓ : Loc nD τ sig) → Buf (Elt F) ℓ) (ρ : Dev nD → PrngReg)

theorem W3_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results <;> rfl
theorem W3_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  after_results <;> rfl
theorem W3_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results <;> rfl
theorem W3_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results <;> rfl
theorem W3_arg5 (c : Dev nD) : W3 m ρ c (Proc.devRef .tc main_arg5) = m ((c : Thread nD τ).loc main_arg5) := by
  show after hostOps0_2 (after hostOps0_1 (after hostOps0 (W0 m ρ c))) (Proc.devRef .tc main_arg5) = _
  after_results <;> rfl

/-- The source endpoints, at the first region's entry. -/
theorem W3_src (c : Dev nD) : W3 m ρ c (Proc.devRef .tc main_v3) = srcOf (m ((c : Thread nD τ).loc main_arg1)) := by
  show after hostOps0_2 (after hostOps0_1 (after hostOps0 (W0 m ρ c))) (Proc.devRef .tc main_v3) = _
  after_results <;> rfl
/-- The target endpoints, at the first region's entry. -/
theorem W3_dst (c : Dev nD) : W3 m ρ c (Proc.devRef .tc main_v6) = dstOf (m ((c : Thread nD τ).loc main_arg1)) := by
  show after hostOps0_2 (after hostOps0_1 (after hostOps0 (W0 m ρ c))) (Proc.devRef .tc main_v6) = _
  after_results <;> rfl
/-! ## Each stretch from an arbitrary entry valuation -/

section Stretches

variable (U : Valuation τ sig (Elt F))

/-- The first stretch leaves the test "degree positive" in its buffer. -/
theorem s0_pos : after hostOps0 U (Proc.devRef .tc main_v12)
    = cmpf (F := F) .ogt (degOf (U (Proc.devRef .tc main_arg1))) (broadcastInDim S100000 ![] bcast_S_S100000 (constant (F := F) S_ .f32 0x00000000#32)) := by
  after_results <;> rfl
/-- The first stretch leaves the inverse square roots of the degrees in their buffer. -/
theorem s0_rsqrt : after hostOps0 U (Proc.devRef .tc main_v13) = Host.rsqrt (degOf (U (Proc.devRef .tc main_arg1))) := by
  after_results <;> rfl
/-- The first stretch leaves the zero scalar in its buffer. -/
theorem s0_zero : after hostOps0 U (Proc.devRef .tc main_cst_2) = constant (F := F) S_ .f32 0x00000000#32 := by
  after_results <;> rfl
theorem s0_src : after hostOps0 U (Proc.devRef .tc main_v3) = srcOf (U (Proc.devRef .tc main_arg1)) := by
  after_results <;> rfl
theorem s0_dst : after hostOps0 U (Proc.devRef .tc main_v6) = dstOf (U (Proc.devRef .tc main_arg1)) := by
  after_results <;> rfl

/-- The select of the second stretch, from the three buffers it reads. -/
theorem s01_dinv : after hostOps0_1 U (Proc.devRef .tc main_v14)
    = select (U (Proc.devRef .tc main_v12)) (U (Proc.devRef .tc main_v13)) (broadcastInDim S100000 ![] bcast_S_S100000 (id (U (Proc.devRef .tc main_cst_2)))) := by
  after_results <;> rfl
theorem s01_src : after hostOps0_1 U (Proc.devRef .tc main_v3) = U (Proc.devRef .tc main_v3) := by
  after_results <;> rfl
theorem s01_dst : after hostOps0_1 U (Proc.devRef .tc main_v6) = U (Proc.devRef .tc main_v6) := by
  after_results <;> rfl

set_option maxHeartbeats 1600000 in
/-- The third stretch's product of the two gathered factors, from the three buffers it reads. -/
theorem s02_norm : after hostOps0_2 U (Proc.devRef .tc main_v29)
    = mulf
        (Host.gather gather_S100000_S1700000x1_S1700000_n_0_n_n_0_1_1 (U (Proc.devRef .tc main_v14)) (broadcastInDim S1700000x1 ![0] bcast_S1700000_S1700000x1_0 (wrapOf (F := F) (U (Proc.devRef .tc main_v3)))))
        (Host.gather gather_S100000_S1700000x1_S1700000_n_0_n_n_0_1_1 (U (Proc.devRef .tc main_v14)) (broadcastInDim S1700000x1 ![0] bcast_S1700000_S1700000x1_0 (wrapOf (F := F) (U (Proc.devRef .tc main_v6))))) := by
  after_results_simp <;> rfl

set_option maxHeartbeats 1600000 in
/-- The stretch between the first two regions: the aggregated rows, from the four buffers it reads. -/
theorem s1_agg : after hostOps1 U (Proc.devRef .tc main_v43)
    = Host.scatterAdd (F := F) scatter_S100000x64_S1700000x1_S1700000x64_1_0_0_1
        (broadcastInDim S100000x64 ![] bcast_S_S100000x64 (constant (F := F) S_ .f32 0x00000000#32))
        (broadcastInDim S1700000x1 ![0] bcast_S1700000_S1700000x1_0 (U (Proc.devRef .tc main_v6)))
        (mulf
          (Host.gather gather_S100000x64_S1700000x1_S1700000x64_1_0_n_n_0_1_164 (U (Proc.devRef .tc main_v30)) (broadcastInDim S1700000x1 ![0] bcast_S1700000_S1700000x1_0 (wrapOf (F := F) (U (Proc.devRef .tc main_v3)))))
          (broadcastInDim S1700000x64 ![0, 1] bcast_S1700000x1_S1700000x64_0_1 (broadcastInDim S1700000x1 ![0] bcast_S1700000_S1700000x1_0 (U (Proc.devRef .tc main_v29))))) := by
  after_results_simp <;> rfl
/-- The same stretch lays the first bias out as one row. -/
theorem s1_bias : after hostOps1 U (Proc.devRef .tc main_v44) = shapeCast S1x64 (U (Proc.devRef .tc main_arg3)) shapeCasts_S64_S1x64 := by
  after_results <;> rfl
theorem s1_src : after hostOps1 U (Proc.devRef .tc main_v3) = U (Proc.devRef .tc main_v3) := by after_results <;> rfl
theorem s1_dst : after hostOps1 U (Proc.devRef .tc main_v6) = U (Proc.devRef .tc main_v6) := by after_results <;> rfl
theorem s1_norm : after hostOps1 U (Proc.devRef .tc main_v29) = U (Proc.devRef .tc main_v29) := by after_results <;> rfl
theorem s1_arg4 : after hostOps1 U (Proc.devRef .tc main_arg4) = U (Proc.devRef .tc main_arg4) := by after_results <;> rfl
theorem s1_arg5 : after hostOps1 U (Proc.devRef .tc main_arg5) = U (Proc.devRef .tc main_arg5) := by after_results <;> rfl

set_option maxHeartbeats 1600000 in
/-- The stretch before the last region: the aggregated rows, from the four buffers it reads. -/
theorem s3_agg : after hostOps3 U (Proc.devRef .tc main_v59)
    = Host.scatterAdd (F := F) scatter_S100000x16_S1700000x1_S1700000x16_1_0_0_1
        (broadcastInDim S100000x16 ![] bcast_S_S100000x16 (constant (F := F) S_ .f32 0x00000000#32))
        (broadcastInDim S1700000x1 ![0] bcast_S1700000_S1700000x1_0 (U (Proc.devRef .tc main_v6)))
        (mulf
          (Host.gather gather_S100000x16_S1700000x1_S1700000x16_1_0_n_n_0_1_116 (U (Proc.devRef .tc main_v46)) (broadcastInDim S1700000x1 ![0] bcast_S1700000_S1700000x1_0 (wrapOf (F := F) (U (Proc.devRef .tc main_v3)))))
          (broadcastInDim S1700000x16 ![0, 1] bcast_S1700000x1_S1700000x16_0_1 (broadcastInDim S1700000x1 ![0] bcast_S1700000_S1700000x1_0 (U (Proc.devRef .tc main_v29))))) := by
  after_results_simp <;> rfl
/-- The same stretch lays the second bias out as one row. -/
theorem s3_bias : after hostOps3 U (Proc.devRef .tc main_v60) = shapeCast S1x16 (U (Proc.devRef .tc main_arg5)) shapeCasts_S16_S1x16 := by
  after_results <;> rfl

end Stretches

/-! ## The contents at the boundaries, from the launch contents -/

/-- The inverse-square-root factors, after the second stretch. -/
theorem W2_dinv (c : Dev nD) : W2 m ρ c (Proc.devRef .tc main_v14) = dinvOf (m ((c : Thread nD τ).loc main_arg1)) := by
  refine (s01_dinv (W1 m ρ c)).trans ?_
  rw [show W1 m ρ c (Proc.devRef .tc main_v12) = _ from s0_pos (W0 m ρ c), show W1 m ρ c (Proc.devRef .tc main_v13) = _ from s0_rsqrt (W0 m ρ c),
    show W1 m ρ c (Proc.devRef .tc main_cst_2) = _ from s0_zero (W0 m ρ c)]
  rfl
theorem W2_src (c : Dev nD) : W2 m ρ c (Proc.devRef .tc main_v3) = srcOf (m ((c : Thread nD τ).loc main_arg1)) :=
  (s01_src (W1 m ρ c)).trans (s0_src (W0 m ρ c))
theorem W2_dst (c : Dev nD) : W2 m ρ c (Proc.devRef .tc main_v6) = dstOf (m ((c : Thread nD τ).loc main_arg1)) :=
  (s01_dst (W1 m ρ c)).trans (s0_dst (W0 m ρ c))

/-- The edges' weights, at the first region's entry. -/
theorem W3_norm (c : Dev nD) : W3 m ρ c (Proc.devRef .tc main_v29) = normOf (m ((c : Thread nD τ).loc main_arg1)) := by
  refine (s02_norm (W2 m ρ c)).trans ?_
  rw [W2_dinv, W2_src, W2_dst]
  rfl

/-! ### Through the first region: it writes only its result -/

theorem W4_src (c : Dev nD) : W4 m ρ c (Proc.devRef .tc main_v3) = srcOf (m ((c : Thread nD τ).loc main_arg1)) :=
  (W4_of_ne m ρ c main_v3 (by decide)).trans (W3_src m ρ c)
theorem W4_dst (c : Dev nD) : W4 m ρ c (Proc.devRef .tc main_v6) = dstOf (m ((c : Thread nD τ).loc main_arg1)) :=
  (W4_of_ne m ρ c main_v6 (by decide)).trans (W3_dst m ρ c)
theorem W4_norm (c : Dev nD) : W4 m ρ c (Proc.devRef .tc main_v29) = normOf (m ((c : Thread nD τ).loc main_arg1)) :=
  (W4_of_ne m ρ c main_v29 (by decide)).trans (W3_norm m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ### The second region's entry -/

/-- The aggregated rows of the first layer, from whatever the first region left as its result. -/
theorem W5_agg (c : Dev nD) : W5 m ρ c (Proc.devRef .tc main_v43)
    = agg64 (m ((c : Thread nD τ).loc main_arg1)) (W4 m ρ c (Proc.devRef .tc main_v30)) := by
  refine (s1_agg (W4 m ρ c)).trans ?_
  rw [W4_src, W4_dst, W4_norm]
  rfl
/-- The first bias as one row. -/
theorem W5_bias (c : Dev nD) : W5 m ρ c (Proc.devRef .tc main_v44) = shapeCast S1x64 (m ((c : Thread nD τ).loc main_arg3)) shapeCasts_S64_S1x64 := by
  refine (s1_bias (W4 m ρ c)).trans ?_
  rw [W4_arg3]

/-! ### Through the second and third regions -/

theorem W7_src (c : Dev nD) : W7 m ρ c (Proc.devRef .tc main_v3) = srcOf (m ((c : Thread nD τ).loc main_arg1)) :=
  (W7_of_ne m ρ c main_v3 (by decide)).trans ((W6_of_ne m ρ c main_v3 (by decide)).trans ((s1_src (W4 m ρ c)).trans (W4_src m ρ c)))
theorem W7_dst (c : Dev nD) : W7 m ρ c (Proc.devRef .tc main_v6) = dstOf (m ((c : Thread nD τ).loc main_arg1)) :=
  (W7_of_ne m ρ c main_v6 (by decide)).trans ((W6_of_ne m ρ c main_v6 (by decide)).trans ((s1_dst (W4 m ρ c)).trans (W4_dst m ρ c)))
theorem W7_norm (c : Dev nD) : W7 m ρ c (Proc.devRef .tc main_v29) = normOf (m ((c : Thread nD τ).loc main_arg1)) :=
  (W7_of_ne m ρ c main_v29 (by decide)).trans ((W6_of_ne m ρ c main_v29 (by decide)).trans ((s1_norm (W4 m ρ c)).trans (W4_norm m ρ c)))
theorem W6_arg4 (c : Dev nD) : W6 m ρ c (Proc.devRef .tc main_arg4) = m ((c : Thread nD τ).loc main_arg4) :=
  (W6_of_ne m ρ c main_arg4 (by decide)).trans ((s1_arg4 (W4 m ρ c)).trans (W4_arg4 m ρ c))
theorem W7_arg5 (c : Dev nD) : W7 m ρ c (Proc.devRef .tc main_arg5) = m ((c : Thread nD τ).loc main_arg5) :=
  (W7_of_ne m ρ c main_arg5 (by decide)).trans ((W6_of_ne m ρ c main_arg5 (by decide)).trans ((s1_arg5 (W4 m ρ c)).trans (W4_arg5 m ρ c)))

/-! ### The last region's entry -/

/-- The aggregated rows of the second layer, from whatever the third region left as its result. -/
theorem W8_agg (c : Dev nD) : W8 m ρ c (Proc.devRef .tc main_v59)
    = agg16 (m ((c : Thread nD τ).loc main_arg1)) (W7 m ρ c (Proc.devRef .tc main_v46)) := by
  refine (s3_agg (W7 m ρ c)).trans ?_
  rw [W7_src, W7_dst, W7_norm]
  rfl
/-- The second bias as one row. -/
theorem W8_bias (c : Dev nD) : W8 m ρ c (Proc.devRef .tc main_v60) = shapeCast S1x16 (m ((c : Thread nD τ).loc main_arg5)) shapeCasts_S16_S1x16 := by
  refine (s3_bias (W7 m ρ c)).trans ?_
  rw [W7_arg5]

end Cert.KernelIdeal.Gcn

end
-- ==== Proof.Region0.lean ====
import proofs.«161350_j7997229105681_1_alg».proof.Proof.Gen.KernelIdeal.Frame
import Idealize.ShloMosaic.Lib.Pipeline.Value
import Idealize.ShloMosaic.Lib.ValueIdx
import Idealize.ShloMosaic.PureOps.Ideal.Laws

/-!
# The first layer's projection: a 100000 × 128 array times a 128 × 64 array, fifty row blocks at a time

Grid point `t` stages rows `2000·t … 2000·t + 1999` of the left factor and the whole right factor, multiplies them
into a zero accumulator and writes the 2000 × 64 product back to the same rows of the result. Over the extended
reals the change of float format on the way into the product is the identity, so entry `(r, j)` of what point
`r / 2000` writes is `∑ k, x (r, k) · w (k, j)`: the blocks are the restrictions of ONE product of the whole arrays,
and they tile the result.
-/

set_option maxRecDepth 16384

noncomputable section

namespace Cert.KernelIdeal.Gcn

open Cert.KernelIdeal Cert.KernelIdeal.Gen Idealize.ShloMosaic Idealize.ShloMosaic.TcCoe Idealize.SL.Sem
open Idealize.ShloMosaic.Pipeline (Dat)

/-! ## The product of the whole arrays -/

/-- Entry (row of `i`, `k`) of the left factor. -/
abbrev xIdx1 (i : S100000x64.Idx) (k : Fin 128) : S100000x128.Idx := fun a => match a with
  | ⟨0, _⟩ => ⟨(i 0).val, (i 0).isLt⟩
  | ⟨1, _⟩ => ⟨k.val, k.isLt⟩
/-- Entry (`k`, column of `i`) of the right factor. -/
abbrev wIdx1 (i : S100000x64.Idx) (k : Fin 128) : S128x64.Idx := fun a => match a with
  | ⟨0, _⟩ => ⟨k.val, k.isLt⟩
  | ⟨1, _⟩ => ⟨(i 1).val, (i 1).isLt⟩

/-- The matrix product over the extended reals: entry `(r, j)` is `∑ k, x (r, k) · w (k, j)`. -/
def prod1 (x : FVec Ideal S100000x128 .f32) (w : FVec Ideal S128x64 .f32) : FVec Ideal S100000x64 .f32 :=
  fun i => ∑ k : Fin 128, x (xIdx1 i k) * w (wIdx1 i k)

/-! ## One block's product, entry by entry -/

/-- Entry (row of `j`, `k`) of a staged block of the left factor. -/
abbrev bxIdx1 (j : S2000x64.Idx) (k : Fin 128) : S2000x128.Idx := fun a => match a with
  | ⟨0, _⟩ => ⟨(j 0).val, (j 0).isLt⟩
  | ⟨1, _⟩ => ⟨k.val, k.isLt⟩
/-- Entry (`k`, column of `j`) of the staged right factor. -/
abbrev bwIdx1 (j : S2000x64.Idx) (k : Fin 128) : S128x64.Idx := fun a => match a with
  | ⟨0, _⟩ => ⟨k.val, k.isLt⟩
  | ⟨1, _⟩ => ⟨(j 1).val, (j 1).isLt⟩

theorem lhs_blk1_0 (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_blk1_1 (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
theorem rhs_blk1_0 (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
theorem rhs_blk1_1 (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- What the body stores, at entry `j` of the block: the sum over the contracted axis of the two staged blocks'
    entries (the accumulator is zero, the rounding to the narrow format the identity). -/
theorem pay1_apply (x0 : FVec Ideal S2000x128 .f32) (x1 : FVec Ideal S128x64 .f32) (j : S2000x64.Idx) :
    k0_pay1 (F := Ideal) x0 x1 j = ∑ k : Fin 128, x0 (bxIdx1 j k) * x1 (bwIdx1 j k) := by
  show FloatOps.matmul dot_S2000x128_S128x64_S2000x64_1_0_0_1_n_n none (truncf .bf16 x0 bitsLt_bf16_f32) (truncf .bf16 x1 bitsLt_bf16_f32)
    (constant S2000x64 .f32 0x00000000#32) j = _
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = bxIdx1 j k := funext fun a => Fin.ext (by
    match a with
    | ⟨0, _⟩ => exact lhs_blk1_0 _ _
    | ⟨1, _⟩ => exact (lhs_blk1_1 _ _).trans hk)
  have er : dot_S2000x128_S128x64_S2000x64_1_0_0_1_n_n.rhsIdx j ((ValueIdx.contrEquiv1 dot_S2000x128_S128x64_S2000x64_1_0_0_1_n_n 128 rfl rfl).symm k) = bwIdx1 j k := funext fun a => Fin.ext (by
    match a with
    | ⟨0, _⟩ => exact (rhs_blk1_0 _ _).trans hk
    | ⟨1, _⟩ => exact rhs_blk1_1 _ _)
  rw [el, er]
  rfl

/-! ## From the blocks to the array -/

variable (V : (c : Dev nD) → (b : Ref sig .tc) → Buf (Elt Ideal) ((c : Thread nD τ).loc b))

/-- The left factor as the region finds it, at its literal type. -/
abbrev xArr1 (c : Dev nD) : FVec Ideal S100000x128 .f32 := V c main_arg0
/-- The right factor as the region finds it, at its literal type. -/
abbrev wArr1 (c : Dev nD) : FVec Ideal S128x64 .f32 := V c main_arg2
/-- The staged block of the left factor at point `t`, at its literal type. -/
abbrev xBlk1 (c : Dev nD) (t : Fin cfg0.N) : FVec Ideal S2000x128 .f32 := iblk0 V c 0 t
/-- The staged right factor at point `t`, at its literal type. -/
abbrev wBlk1 (c : Dev nD) (t : Fin cfg0.N) : FVec Ideal S128x64 .f32 := iblk0 V c 1 t

theorem zeroOff : (![0, 0] : Fin 2 → Nat) = fun _ => 0 := funext fun a => by fin_cases a <;> rfl

/-- Where the three windows sit at each grid point: the left factor's block and the result's block are row block
    `t`, the right factor is staged whole. -/
theorem where1 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every row block is some grid point's. -/
theorem onto1 : ∀ q : Fin 50, ∃ t : Fin cfg0.N, win0_2.index t = ![q.val, 0] :=
  (by decide +kernel : ∀ q : Fin 50, ∃ t : Fin grid0.N, win0_2.index t = ![q.val, 0])

/-- What grid point `t` writes back is block `t` of the product of the whole arrays as the region finds them. -/
theorem flushed1 (c : Dev nD) (t : Fin cfg0.N) :
    (dat0 V c).flushed 2 t = ((cfg0.win 2).blk t).view.read (Elt Ideal) (prod1 (xArr1 V c) (wArr1 V c)) := by
  show (cfg0.win 2).cut (grid0.coords t) ((dat0 V c).after 2 t) = _
  rw [after0_2]
  unfold out0_2
  rw [View.canon_unit_zero zeroOff]
  simp only [View.ld_unit_zero (S := S2000x128) zeroOff, View.ld_unit_zero (S := S128x64) zeroOff]
  obtain ⟨e0, e1, e2, e3, e4⟩ := where1 t
  funext j
  refine (pay1_apply (xBlk1 V c t) (wBlk1 V c t) j).trans ?_
  show _ = ∑ k : Fin 128, xArr1 V c (xIdx1 (((cfg0.win 2).blk t).view.emb j) k) * wArr1 V c (wIdx1 (((cfg0.win 2).blk t).view.emb j) k)
  refine Finset.sum_congr rfl fun k _ => ?_
  show xArr1 V c (((cfg0.win 0).blk t).view.emb (bxIdx1 j k)) * wArr1 V c (((cfg0.win 1).blk t).view.emb (bwIdx1 j k)) = _
  have h0 : ((cfg0.win 0).blk t).view.emb (bxIdx1 j k) = xIdx1 (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (bwIdx1 j k) = wIdx1 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An index of the result is in point `t`'s block iff each coordinate is in the block's range on its axis. -/
theorem mem_blk1 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- The fifty row blocks tile the result: row `r` is in block `r / 2000`. -/
theorem cover1 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto1 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk1]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- THE ARRAY the region leaves: the product of the two arrays it found. -/
theorem arr1 (c : Dev nD) :
    (dat0 V c).arrAt 2 cfg0.N = prod1 (xArr1 V c) (wArr1 V c) :=
  (dat0 V c).arrAt_eq_of_cover 2 (prod1 (xArr1 V c) (wArr1 V c)) (fun t _ => flushed1 V c t) cover1

end Cert.KernelIdeal.Gcn

end
-- ==== Proof.Region1.lean ====
import proofs.«161350_j7997229105681_1_alg».proof.Proof.Gen.KernelIdeal.Frame
import Idealize.ShloMosaic.Lib.Pipeline.Value
import Idealize.ShloMosaic.Lib.ValueIdx
import Idealize.ShloMosaic.Lib.ValueLayout

/-!
# The first layer's bias and rectifier: a 100000 × 64 array plus one row of 64, then the maximum with zero

Grid point `t` stages rows `2000·t … 2000·t + 1999` of the aggregated features and the bias row, adds the row to
every staged row, takes the maximum with zero entry by entry, and writes the block back to the same rows of the
result. Entry `(r, j)` of what point `r / 2000` writes is `max (a (r, j) + b (0, j)) 0`: every block is the
restriction of that ONE function of the whole arrays, and the fifty blocks tile the result.
-/

set_option maxRecDepth 16384

noncomputable section

namespace Cert.KernelIdeal.Gcn

open Cert.KernelIdeal Cert.KernelIdeal.Gen Idealize.ShloMosaic Idealize.ShloMosaic.TcCoe Idealize.SL.Sem
open Idealize.ShloMosaic.ValueIdx
open Idealize.ShloMosaic.Pipeline (Dat)

/-! ## The function of the whole arrays -/

/-- Row sums with the bias row, rectified: entry `(r, j)` is `max (a (r, j) + b (0, j)) 0` (the zero is the
    word the kernel splats, read as an extended real). -/
def biasRelu1 (a : FVec Ideal S100000x64 .f32) (b : FVec Ideal S1x64 .f32) : FVec Ideal S100000x64 .f32 :=
  fun i => max (a i + b (ix2 (0 : Fin 1) (⟨(i 1).val, (i 1).isLt⟩ : Fin 64))) (Ideal.ofBits .f32 0x00000000#32)

/-! ## One block, entry by entry -/

/-- What the body stores at entry `(p, q)` of the block: the staged entry plus the bias row's entry `q`, rectified
    (the casts to the same shape are the identity; the row broadcast reads the one row). -/
theorem pay2_apply (x0 : FVec Ideal S2000x64 .f32) (x1 : FVec Ideal S1x64 .f32) (p : Fin 2000) (q : Fin 64) :
    k1_pay1 (F := Ideal) x0 x1 (ix2 p q) = max (x0 (ix2 p q) + x1 (ix2 (0 : Fin 1) q)) (Ideal.ofBits .f32 0x00000000#32) := by
  show max ((shapeCast S2000x64 x0 shapeCasts_S2000x64_S2000x64) (ix2 p q)
      + (broadcastTo S2000x64 (shapeCast S1x64 (shapeCast S1x64 x1 shapeCasts_S1x64_S1x64) shapeCasts_S1x64_S1x64) broadcasts_S1x64_S2000x64) (ix2 p q))
    (Ideal.ofBits .f32 0x00000000#32) = _
  rw [shapeCast_self, shapeCast_self, shapeCast_self, broadcastTo_1b_ab_apply]

/-! ## From the blocks to the array -/

variable (V : (c : Dev nD) → (b : Ref sig .tc) → Buf (Elt Ideal) ((c : Thread nD τ).loc b))

/-- The aggregated features as the region finds them, at their literal type. -/
abbrev aArr2 (c : Dev nD) : FVec Ideal S100000x64 .f32 := V c main_v43
/-- The bias row as the region finds it, at its literal type. -/
abbrev bArr2 (c : Dev nD) : FVec Ideal S1x64 .f32 := V c main_v44
/-- The staged block of the features at point `t`, at its literal type. -/
abbrev aBlk2 (c : Dev nD) (t : Fin cfg1.N) : FVec Ideal S2000x64 .f32 := iblk1 V c 0 t
/-- The staged bias row at point `t`, at its literal type. -/
abbrev bBlk2 (c : Dev nD) (t : Fin cfg1.N) : FVec Ideal S1x64 .f32 := iblk1 V c 1 t

theorem zeroOff2 : (![0, 0] : Fin 2 → Nat) = fun _ => 0 := funext fun a => by fin_cases a <;> rfl

/-- Where the three windows sit at each grid point: the features' block and the result's block are row block `t`,
    the bias row is staged whole. -/
theorem where2 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every row block is some grid point's. -/
theorem onto2 : ∀ q : Fin 50, ∃ t : Fin cfg1.N, win1_2.index t = ![q.val, 0] :=
  (by decide +kernel : ∀ q : Fin 50, ∃ t : Fin grid1.N, win1_2.index t = ![q.val, 0])

/-- What grid point `t` writes back is block `t` of the rectified sum of the whole arrays as the region finds them. -/
theorem flushed2 (c : Dev nD) (t : Fin cfg1.N) :
    (dat1 V c).flushed 2 t = ((cfg1.win 2).blk t).view.read (Elt Ideal) (biasRelu1 (aArr2 V c) (bArr2 V c)) := by
  show (cfg1.win 2).cut (grid1.coords t) ((dat1 V c).after 2 t) = _
  rw [after1_2]
  unfold out1_2
  rw [View.canon_unit_zero zeroOff2]
  simp only [View.ld_unit_zero (S := S2000x64) zeroOff2, View.ld_unit_zero (S := S1x64) zeroOff2]
  obtain ⟨e0, e1, e2, e3, e4⟩ := where2 t
  funext j
  obtain ⟨p, q, rfl⟩ : ∃ (p : Fin 2000) (q : Fin 64), j = ix2 p q := ⟨j 0, j 1, eq_ix2 j⟩
  refine (pay2_apply (aBlk2 V c t) (bBlk2 V c t) p q).trans ?_
  show max (aArr2 V c (((cfg1.win 0).blk t).view.emb (ix2 p q)) + bArr2 V c (((cfg1.win 1).blk t).view.emb (ix2 (0 : Fin 1) q))) _
    = max (aArr2 V c (((cfg1.win 2).blk t).view.emb (ix2 p q))
        + bArr2 V c (ix2 (0 : Fin 1) (⟨((((cfg1.win 2).blk t).view.emb (ix2 p q)) 1).val, ((((cfg1.win 2).blk t).view.emb (ix2 p q)) 1).isLt⟩ : Fin 64))) _
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q)
      = ix2 (0 : Fin 1) (⟨((((cfg1.win 2).blk t).view.emb (ix2 p q)) 1).val, ((((cfg1.win 2).blk t).view.emb (ix2 p q)) 1).isLt⟩ : Fin 64) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]

/-- An index of the result is in point `t`'s block iff each coordinate is in the block's range on its axis. -/
theorem mem_blk2 (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v45).slice (win1_2.rect t)).set ↔ _
  rw [View.set_slice_whole, Rect.mem_set_unit]
  exact Iff.rfl

/-- The fifty row blocks tile the result: row `r` is in block `r / 2000`. -/
theorem cover2 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := onto2 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk2]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- THE ARRAY the region leaves: the rectified sum of the two arrays it found. -/
theorem arr2 (c : Dev nD) :
    (dat1 V c).arrAt 2 cfg1.N = biasRelu1 (aArr2 V c) (bArr2 V c) :=
  (dat1 V c).arrAt_eq_of_cover 2 (biasRelu1 (aArr2 V c) (bArr2 V c)) (fun t _ => flushed2 V c t) cover2

end Cert.KernelIdeal.Gcn

end
-- ==== Proof.Region2.lean ====
import proofs.«161350_j7997229105681_1_alg».proof.Proof.Gen.KernelIdeal.Frame
import Idealize.ShloMosaic.Lib.Pipeline.Value
import Idealize.ShloMosaic.Lib.ValueIdx
import Idealize.ShloMosaic.PureOps.Ideal.Laws

/-!
# The second layer's projection: a 100000 × 64 array times a 64 × 16 array, fifty row blocks at a time

Grid point `t` stages rows `2000·t … 2000·t + 1999` of the hidden features and the whole 64 × 16 weight, multiplies
them into a zero accumulator and writes the 2000 × 16 product back to the same rows of the result. Over the extended
reals the rounding on the way into the product and the cast to the same shape are the identity, so entry `(r, j)` of
what point `r / 2000` writes is `∑ k, h (r, k) · w (k, j)`: the blocks are the restrictions of ONE product of the
whole arrays, and they tile the result.
-/

set_option maxRecDepth 16384

noncomputable section

namespace Cert.KernelIdeal.Gcn

open Cert.KernelIdeal Cert.KernelIdeal.Gen Idealize.ShloMosaic Idealize.ShloMosaic.TcCoe Idealize.SL.Sem
open Idealize.ShloMosaic.Pipeline (Dat)

/-! ## The product of the whole arrays -/

/-- Entry (row of `i`, `k`) of the left factor. -/
abbrev xIdx3 (i : S100000x16.Idx) (k : Fin 64) : S100000x64.Idx := fun a => match a with
  | ⟨0, _⟩ => ⟨(i 0).val, (i 0).isLt⟩
  | ⟨1, _⟩ => ⟨k.val, k.isLt⟩
/-- Entry (`k`, column of `i`) of the right factor. -/
abbrev wIdx3 (i : S100000x16.Idx) (k : Fin 64) : S64x16.Idx := fun a => match a with
  | ⟨0, _⟩ => ⟨k.val, k.isLt⟩
  | ⟨1, _⟩ => ⟨(i 1).val, (i 1).isLt⟩

/-- The matrix product over the extended reals: entry `(r, j)` is `∑ k, h (r, k) · w (k, j)`. -/
def prod3 (x : FVec Ideal S100000x64 .f32) (w : FVec Ideal S64x16 .f32) : FVec Ideal S100000x16 .f32 :=
  fun i => ∑ k : Fin 64, x (xIdx3 i k) * w (wIdx3 i k)

/-! ## One block's product, entry by entry -/

/-- Entry (row of `j`, `k`) of a staged block of the left factor. -/
abbrev bxIdx3 (j : S2000x16.Idx) (k : Fin 64) : S2000x64.Idx := fun a => match a with
  | ⟨0, _⟩ => ⟨(j 0).val, (j 0).isLt⟩
  | ⟨1, _⟩ => ⟨k.val, k.isLt⟩
/-- Entry (`k`, column of `j`) of the staged right factor. -/
abbrev bwIdx3 (j : S2000x16.Idx) (k : Fin 64) : S64x16.Idx := fun a => match a with
  | ⟨0, _⟩ => ⟨k.val, k.isLt⟩
  | ⟨1, _⟩ => ⟨(j 1).val, (j 1).isLt⟩

theorem lhs_blk3_0 (j : S2000x16.Idx) (q : dot_S2000x64_S64x16_S2000x16_1_0_0_1_n_n.contr.Idx) :
    (dot_S2000x64_S64x16_S2000x16_1_0_0_1_n_n.lhsIdx j q 0).val = (j 0).val := by
  unfold DotDims.lhsIdx
  rw [dif_neg (show ¬(0 : Fin S2000x64.rank) ∈ dot_S2000x64_S64x16_S2000x16_1_0_0_1_n_n.lhsBatch by decide), dif_pos (show (0 : Fin S2000x64.rank) ∈ dot_S2000x64_S64x16_S2000x16_1_0_0_1_n_n.lhsNonContracting by decide)]
  rfl
theorem lhs_blk3_1 (j : S2000x16.Idx) (q : dot_S2000x64_S64x16_S2000x16_1_0_0_1_n_n.contr.Idx) :
    (dot_S2000x64_S64x16_S2000x16_1_0_0_1_n_n.lhsIdx j q 1).val = (q ⟨0, by decide⟩).val :=
  dot_S2000x64_S64x16_S2000x16_1_0_0_1_n_n.lhsIdx_val_of_single rfl j q
theorem rhs_blk3_0 (j : S2000x16.Idx) (q : dot_S2000x64_S64x16_S2000x16_1_0_0_1_n_n.contr.Idx) :
    (dot_S2000x64_S64x16_S2000x16_1_0_0_1_n_n.rhsIdx j q 0).val = (q ⟨0, by decide⟩).val :=
  dot_S2000x64_S64x16_S2000x16_1_0_0_1_n_n.rhsIdx_val_of_single rfl j q
theorem rhs_blk3_1 (j : S2000x16.Idx) (q : dot_S2000x64_S64x16_S2000x16_1_0_0_1_n_n.contr.Idx) :
    (dot_S2000x64_S64x16_S2000x16_1_0_0_1_n_n.rhsIdx j q 1).val = (j 1).val := by
  unfold DotDims.rhsIdx
  rw [dif_neg (show ¬(1 : Fin S64x16.rank) ∈ dot_S2000x64_S64x16_S2000x16_1_0_0_1_n_n.rhsBatch by decide), dif_pos (show (1 : Fin S64x16.rank) ∈ dot_S2000x64_S64x16_S2000x16_1_0_0_1_n_n.rhsNonContracting by decide)]
  rfl

/-- What the body stores, at entry `j` of the block: the sum over the contracted axis of the two staged blocks'
    entries (the accumulator is zero; the cast to the same shape and the rounding to the narrow format are the identity). -/
theorem pay3_apply (x0 : FVec Ideal S2000x64 .f32) (x1 : FVec Ideal S64x16 .f32) (j : S2000x16.Idx) :
    k2_pay1 (F := Ideal) x0 x1 j = ∑ k : Fin 64, x0 (bxIdx3 j k) * x1 (bwIdx3 j k) := by
  show FloatOps.matmul dot_S2000x64_S64x16_S2000x16_1_0_0_1_n_n none (truncf .bf16 (shapeCast S2000x64 x0 shapeCasts_S2000x64_S2000x64) bitsLt_bf16_f32) (truncf .bf16 x1 bitsLt_bf16_f32)
    (constant S2000x16 .f32 0x00000000#32) j = _
  rw [shapeCast_self x0]
  rw [Ideal.matmul_constant_zero_apply, ← Equiv.sum_comp (ValueIdx.contrEquiv1 dot_S2000x64_S64x16_S2000x16_1_0_0_1_n_n 64 rfl rfl).symm]
  refine Finset.sum_congr rfl fun k _ => ?_
  have hk := ValueIdx.contrEquiv1_symm_val dot_S2000x64_S64x16_S2000x16_1_0_0_1_n_n 64 rfl rfl k
  have el : dot_S2000x64_S64x16_S2000x16_1_0_0_1_n_n.lhsIdx j ((ValueIdx.contrEquiv1 dot_S2000x64_S64x16_S2000x16_1_0_0_1_n_n 64 rfl rfl).symm k) = bxIdx3 j k := funext fun a => Fin.ext (by
    match a with
    | ⟨0, _⟩ => exact lhs_blk3_0 _ _
    | ⟨1, _⟩ => exact (lhs_blk3_1 _ _).trans hk)
  have er : dot_S2000x64_S64x16_S2000x16_1_0_0_1_n_n.rhsIdx j ((ValueIdx.contrEquiv1 dot_S2000x64_S64x16_S2000x16_1_0_0_1_n_n 64 rfl rfl).symm k) = bwIdx3 j k := funext fun a => Fin.ext (by
    match a with
    | ⟨0, _⟩ => exact (rhs_blk3_0 _ _).trans hk
    | ⟨1, _⟩ => exact rhs_blk3_1 _ _)
  rw [el, er]
  rfl

/-! ## From the blocks to the array -/

variable (V : (c : Dev nD) → (b : Ref sig .tc) → Buf (Elt Ideal) ((c : Thread nD τ).loc b))

/-- The hidden features as the region finds them, at their literal type. -/
abbrev xArr3 (c : Dev nD) : FVec Ideal S100000x64 .f32 := V c main_v45
/-- The weight as the region finds it, at its literal type. -/
abbrev wArr3 (c : Dev nD) : FVec Ideal S64x16 .f32 := V c main_arg4
/-- The staged block of the hidden features at point `t`, at its literal type. -/
abbrev xBlk3 (c : Dev nD) (t : Fin cfg2.N) : FVec Ideal S2000x64 .f32 := iblk2 V c 0 t
/-- The staged weight at point `t`, at its literal type. -/
abbrev wBlk3 (c : Dev nD) (t : Fin cfg2.N) : FVec Ideal S64x16 .f32 := iblk2 V c 1 t

theorem zeroOff3 : (![0, 0] : Fin 2 → Nat) = fun _ => 0 := funext fun a => by fin_cases a <;> rfl

/-- Where the three windows sit at each grid point: the left factor's block and the result's block are row block
    `t`, the weight is staged whole. -/
theorem where3 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every row block is some grid point's. -/
theorem onto3 : ∀ q : Fin 50, ∃ t : Fin cfg2.N, win2_2.index t = ![q.val, 0] :=
  (by decide +kernel : ∀ q : Fin 50, ∃ t : Fin grid2.N, win2_2.index t = ![q.val, 0])

/-- What grid point `t` writes back is block `t` of the product of the whole arrays as the region finds them. -/
theorem flushed3 (c : Dev nD) (t : Fin cfg2.N) :
    (dat2 V c).flushed 2 t = ((cfg2.win 2).blk t).view.read (Elt Ideal) (prod3 (xArr3 V c) (wArr3 V c)) := by
  show (cfg2.win 2).cut (grid2.coords t) ((dat2 V c).after 2 t) = _
  rw [after2_2]
  unfold out2_2
  rw [View.canon_unit_zero zeroOff3]
  simp only [View.ld_unit_zero (S := S2000x64) zeroOff3, View.ld_unit_zero (S := S64x16) zeroOff3]
  obtain ⟨e0, e1, e2, e3, e4⟩ := where3 t
  funext j
  refine (pay3_apply (xBlk3 V c t) (wBlk3 V c t) j).trans ?_
  show _ = ∑ k : Fin 64, xArr3 V c (xIdx3 (((cfg2.win 2).blk t).view.emb j) k) * wArr3 V c (wIdx3 (((cfg2.win 2).blk t).view.emb j) k)
  refine Finset.sum_congr rfl fun k _ => ?_
  show xArr3 V c (((cfg2.win 0).blk t).view.emb (bxIdx3 j k)) * wArr3 V c (((cfg2.win 1).blk t).view.emb (bwIdx3 j k)) = _
  have h0 : ((cfg2.win 0).blk t).view.emb (bxIdx3 j k) = xIdx3 (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 64 + 1 * k.val = k.val; omega
  have h1 : ((cfg2.win 1).blk t).view.emb (bwIdx3 j k) = wIdx3 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 16 + 1 * (j 1).val = win2_2.index t (1 : Fin 2) * 16 + 1 * (j 1).val; omega
  rw [h0, h1]

/-- An index of the result is in point `t`'s block iff each coordinate is in the block's range on its axis. -/
theorem mem_blk3 (t : Fin cfg2.N) (i : S100000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v46).slice (win2_2.rect t)).set ↔ _
  rw [View.set_slice_whole, Rect.mem_set_unit]
  exact Iff.rfl

/-- The fifty row blocks tile the result: row `r` is in block `r / 2000`. -/
theorem cover3 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := onto3 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk3]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 16 ≤ (i 1).val ∧ (i 1).val < win2_2.index t (1 : Fin 2) * 16 + 16; omega

/-- THE ARRAY the region leaves: the product of the two arrays it found. -/
theorem arr3 (c : Dev nD) :
    (dat2 V c).arrAt 2 cfg2.N = prod3 (xArr3 V c) (wArr3 V c) :=
  (dat2 V c).arrAt_eq_of_cover 2 (prod3 (xArr3 V c) (wArr3 V c)) (fun t _ => flushed3 V c t) cover3

end Cert.KernelIdeal.Gcn

end
-- ==== Proof.Region3.lean ====
import proofs.«161350_j7997229105681_1_alg».proof.Proof.Gen.KernelIdeal.Frame
import Idealize.ShloMosaic.Lib.Pipeline.Value
import Idealize.ShloMosaic.Lib.ValueIdx
import Idealize.ShloMosaic.Lib.ValueLayout

/-!
# The second layer's bias: a 100000 × 16 array plus one row of 16

Grid point `t` stages rows `2000·t … 2000·t + 1999` of the aggregated features and the bias row, adds the row to
every staged row and writes the block back to the same rows of the result. Entry `(r, j)` of what point `r / 2000`
writes is `a (r, j) + b (0, j)`: every block is the restriction of that ONE function of the whole arrays, and the
fifty blocks tile the result.
-/

set_option maxRecDepth 16384

noncomputable section

namespace Cert.KernelIdeal.Gcn

open Cert.KernelIdeal Cert.KernelIdeal.Gen Idealize.ShloMosaic Idealize.ShloMosaic.TcCoe Idealize.SL.Sem
open Idealize.ShloMosaic.ValueIdx
open Idealize.ShloMosaic.Pipeline (Dat)

/-! ## The function of the whole arrays -/

/-- Rows plus the bias row: entry `(r, j)` is `a (r, j) + b (0, j)`. -/
def biasAdd4 (a : FVec Ideal S100000x16 .f32) (b : FVec Ideal S1x16 .f32) : FVec Ideal S100000x16 .f32 :=
  fun i => a i + b (ix2 (0 : Fin 1) (⟨(i 1).val, (i 1).isLt⟩ : Fin 16))

/-! ## One block, entry by entry -/

/-- What the body stores at entry `(p, q)` of the block: the staged entry plus the bias row's entry `q` (the casts
    to the same shape are the identity; the row broadcast reads the one row). -/
theorem pay4_apply (x0 : FVec Ideal S2000x16 .f32) (x1 : FVec Ideal S1x16 .f32) (p : Fin 2000) (q : Fin 16) :
    k3_pay1 (F := Ideal) x0 x1 (ix2 p q) = x0 (ix2 p q) + x1 (ix2 (0 : Fin 1) q) := by
  show (shapeCast S2000x16 x0 shapeCasts_S2000x16_S2000x16) (ix2 p q)
      + (broadcastTo S2000x16 (shapeCast S1x16 (shapeCast S1x16 x1 shapeCasts_S1x16_S1x16) shapeCasts_S1x16_S1x16) broadcasts_S1x16_S2000x16) (ix2 p q) = _
  rw [shapeCast_self, shapeCast_self, shapeCast_self, broadcastTo_1b_ab_apply]

/-! ## From the blocks to the array -/

variable (V : (c : Dev nD) → (b : Ref sig .tc) → Buf (Elt Ideal) ((c : Thread nD τ).loc b))

/-- The aggregated features as the region finds them, at their literal type. -/
abbrev aArr4 (c : Dev nD) : FVec Ideal S100000x16 .f32 := V c main_v59
/-- The bias row as the region finds it, at its literal type. -/
abbrev bArr4 (c : Dev nD) : FVec Ideal S1x16 .f32 := V c main_v60
/-- The staged block of the features at point `t`, at its literal type. -/
abbrev aBlk4 (c : Dev nD) (t : Fin cfg3.N) : FVec Ideal S2000x16 .f32 := iblk3 V c 0 t
/-- The staged bias row at point `t`, at its literal type. -/
abbrev bBlk4 (c : Dev nD) (t : Fin cfg3.N) : FVec Ideal S1x16 .f32 := iblk3 V c 1 t

theorem zeroOff4 : (![0, 0] : Fin 2 → Nat) = fun _ => 0 := funext fun a => by fin_cases a <;> rfl

/-- Where the three windows sit at each grid point: the features' block and the result's block are row block `t`,
    the bias row is staged whole. -/
theorem where4 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 :=
  (by decide +kernel : ∀ t : Fin grid3.N, _)

/-- Every row block is some grid point's. -/
theorem onto4 : ∀ q : Fin 50, ∃ t : Fin cfg3.N, win3_2.index t = ![q.val, 0] :=
  (by decide +kernel : ∀ q : Fin 50, ∃ t : Fin grid3.N, win3_2.index t = ![q.val, 0])

/-- What grid point `t` writes back is block `t` of the sum of the whole arrays as the region finds them. -/
theorem flushed4 (c : Dev nD) (t : Fin cfg3.N) :
    (dat3 V c).flushed 2 t = ((cfg3.win 2).blk t).view.read (Elt Ideal) (biasAdd4 (aArr4 V c) (bArr4 V c)) := by
  show (cfg3.win 2).cut (grid3.coords t) ((dat3 V c).after 2 t) = _
  rw [after3_2]
  unfold out3_2
  rw [View.canon_unit_zero zeroOff4]
  simp only [View.ld_unit_zero (S := S2000x16) zeroOff4, View.ld_unit_zero (S := S1x16) zeroOff4]
  obtain ⟨e0, e1, e2, e3, e4⟩ := where4 t
  funext j
  obtain ⟨p, q, rfl⟩ : ∃ (p : Fin 2000) (q : Fin 16), j = ix2 p q := ⟨j 0, j 1, eq_ix2 j⟩
  refine (pay4_apply (aBlk4 V c t) (bBlk4 V c t) p q).trans ?_
  show aArr4 V c (((cfg3.win 0).blk t).view.emb (ix2 p q)) + bArr4 V c (((cfg3.win 1).blk t).view.emb (ix2 (0 : Fin 1) q))
    = aArr4 V c (((cfg3.win 2).blk t).view.emb (ix2 p q))
        + bArr4 V c (ix2 (0 : Fin 1) (⟨((((cfg3.win 2).blk t).view.emb (ix2 p q)) 1).val, ((((cfg3.win 2).blk t).view.emb (ix2 p q)) 1).isLt⟩ : Fin 16))
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 16 + 1 * q.val = win3_2.index t (1 : Fin 2) * 16 + 1 * q.val; omega
  have h1 : ((cfg3.win 1).blk t).view.emb (ix2 (0 : Fin 1) q)
      = ix2 (0 : Fin 1) (⟨((((cfg3.win 2).blk t).view.emb (ix2 p q)) 1).val, ((((cfg3.win 2).blk t).view.emb (ix2 p q)) 1).isLt⟩ : Fin 16) := by
    funext a; apply Fin.ext
    match a with
    | ⟨0, _⟩ => show win3_1.index t (0 : Fin 2) * 1 + 1 * 0 = 0; omega
    | ⟨1, _⟩ => show win3_1.index t (1 : Fin 2) * 16 + 1 * q.val = win3_2.index t (1 : Fin 2) * 16 + 1 * q.val; omega
  rw [h0, h1]

/-- An index of the result is in point `t`'s block iff each coordinate is in the block's range on its axis. -/
theorem mem_blk4 (t : Fin cfg3.N) (i : S100000x16.Idx) :
    i ∈ ((cfg3.win 2).blk t).view.set ↔ ∀ a : Fin 2, win3_2.index t a * S2000x16.size a ≤ (i a).val ∧ (i a).val < win3_2.index t a * S2000x16.size a + S2000x16.size a := by
  show i ∈ ((View.whole main_v61).slice (win3_2.rect t)).set ↔ _
  rw [View.set_slice_whole, Rect.mem_set_unit]
  exact Iff.rfl

/-- The fifty row blocks tile the result: row `r` is in block `r / 2000`. -/
theorem cover4 (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, ht⟩ := onto4 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk4]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 16 ≤ (i 1).val ∧ (i 1).val < win3_2.index t (1 : Fin 2) * 16 + 16; omega

/-- THE ARRAY the region leaves: the sum of the two arrays it found. -/
theorem arr4 (c : Dev nD) :
    (dat3 V c).arrAt 2 cfg3.N = biasAdd4 (aArr4 V c) (bArr4 V c) :=
  (dat3 V c).arrAt_eq_of_cover 2 (biasAdd4 (aArr4 V c) (bArr4 V c)) (fun t _ => flushed4 V c t) cover4

end Cert.KernelIdeal.Gcn

end
-- ==== Proof.KernelValue.lean ====
import proofs.«161350_j7997229105681_1_alg».proof.Proof.KernelRun
import proofs.«161350_j7997229105681_1_alg».proof.Proof.HostStages
import proofs.«161350_j7997229105681_1_alg».proof.Proof.Region0
import proofs.«161350_j7997229105681_1_alg».proof.Proof.Region1
import proofs.«161350_j7997229105681_1_alg».proof.Proof.Region2
import proofs.«161350_j7997229105681_1_alg».proof.Proof.Region3

/-!
# The whole computation as one function of the six arguments

Two graph-convolution layers. With `x` the node features, `e` the edge list, `w1`, `b1`, `w2`, `b2` the two
layers' weights and biases: project (`x · w1`), aggregate over the edges with their weights, add the bias and rectify;
project again (`· w2`), aggregate again, add the second bias. Each region's result array is the matching function of
the arrays the region finds (the four region modules), and what it finds is what the stretch before it computed from
the launch contents; composing them from the last region back gives the result array after the run.
-/

set_option maxRecDepth 16384

noncomputable section

namespace Cert.KernelIdeal.Gcn

open Cert.KernelIdeal Cert.KernelIdeal.Gen Idealize.ShloMosaic Idealize.ShloMosaic.TcCoe Idealize.SL.Sem Idealize.ShloMosaic.StableHlo

/-- The two layers, over the extended reals. -/
def gcn (x : FVec Ideal S100000x128 .f32) (e : (⟨S2x1600000, .i32⟩ : BufTy).Contents (Elt Ideal)) (w1 : FVec Ideal S128x64 .f32)
    (b1 : FVec Ideal S64 .f32) (w2 : FVec Ideal S64x16 .f32) (b2 : FVec Ideal S16 .f32) : FVec Ideal S100000x16 .f32 :=
  biasAdd4
    (agg16 e (prod3 (biasRelu1 (agg64 e (prod1 x w1)) (shapeCast S1x64 b1 shapeCasts_S64_S1x64)) w2))
    (shapeCast S1x16 b2 shapeCasts_S16_S1x16)

variable (m : (ℓ : Loc nD τ sig) → Buf (Elt Ideal) ℓ) (ρ : Dev nD → PrngReg)

/-- The first region leaves the first projection. -/
theorem W4_proj (c : Dev nD) : W4 m ρ c (Proc.devRef .tc main_v30) = prod1 (m ((c : Thread nD τ).loc main_arg0)) (m ((c : Thread nD τ).loc main_arg2)) := by
  refine (W4_arr m ρ c 2).trans ((arr1 (V3 m ρ) c).trans ?_)
  show prod1 (W3 m ρ c (Proc.devRef .tc main_arg0)) (W3 m ρ c (Proc.devRef .tc main_arg2)) = _
  rw [W3_arg0, W3_arg2]

/-- The second region leaves the hidden features. -/
theorem W6_hidden (c : Dev nD) : W6 m ρ c (Proc.devRef .tc main_v45)
    = biasRelu1 (agg64 (m ((c : Thread nD τ).loc main_arg1)) (prod1 (m ((c : Thread nD τ).loc main_arg0)) (m ((c : Thread nD τ).loc main_arg2))))
        (shapeCast S1x64 (m ((c : Thread nD τ).loc main_arg3)) shapeCasts_S64_S1x64) := by
  refine (W6_arr m ρ c 2).trans ((arr2 (V5 m ρ) c).trans ?_)
  show biasRelu1 (W5 m ρ c (Proc.devRef .tc main_v43)) (W5 m ρ c (Proc.devRef .tc main_v44)) = _
  rw [W5_agg, W5_bias, W4_proj]

/-- The third region leaves the second projection. -/
theorem W7_proj (c : Dev nD) : W7 m ρ c (Proc.devRef .tc main_v46)
    = prod3 (biasRelu1 (agg64 (m ((c : Thread nD τ).loc main_arg1)) (prod1 (m ((c : Thread nD τ).loc main_arg0)) (m ((c : Thread nD τ).loc main_arg2))))
        (shapeCast S1x64 (m ((c : Thread nD τ).loc main_arg3)) shapeCasts_S64_S1x64)) (m ((c : Thread nD τ).loc main_arg4)) := by
  refine (W7_arr m ρ c 2).trans ((arr3 (V6 m ρ) c).trans ?_)
  show prod3 (W6 m ρ c (Proc.devRef .tc main_v45)) (W6 m ρ c (Proc.devRef .tc main_arg4)) = _
  rw [W6_hidden, W6_arg4]

/-- The last region leaves the two layers' result. -/
theorem W9_out (c : Dev nD) : W9 m ρ c (Proc.devRef .tc main_v61)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((arr4 (V8 m ρ) c).trans ?_)
  show biasAdd4 (W8 m ρ c (Proc.devRef .tc main_v59)) (W8 m ρ c (Proc.devRef .tc main_v60)) = _
  rw [W8_agg, W8_bias, W7_proj]
  rfl

/-- The run: every weakly fair execution terminates without a fault, the result array ends at the two layers'
    function of the launch contents of the arguments, and the arguments end as launched. -/
theorem run_value : θ_run defs (onTc (τ := τ) (main (F := Ideal))) ⟨m, fun _ => 0, ρ⟩ (fun r => ∀ c : Dev nD,
      r.2.mem ((c.tc : Thread nD τ).loc main_v61)
        = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W9_out m ρ c), (h c).2⟩) (Gen.run_named m ρ)

end Cert.KernelIdeal.Gcn

end
-- ==== Proof.Bridge.lean ====
import proofs.«161350_j7997229105681_1_alg».proof.Proof.KernelValue
import proofs.«161350_j7997229105681_1_alg».proof.Proof.RefRead
import Idealize.ShloMosaic.Lib.ValueLayout

/-!
# The two programs compute one function

The reference computes the same two layers with the host's own operations: `dot_general` for the projections, a row
broadcast and an addition for each bias, `maximum` against a broadcast zero for the rectifier; the graph part (the
endpoint lists, the degrees, the weights, each layer's gather, scaling and scatter-add) is operation for operation the
one the kernel's program runs between its regions, the weights computed a second time for the second layer.

Over the extended reals a `dot_general` entry is the sum over the contracted axis of the products, which is what a row
block's product into a zero accumulator gives; the bias row cast to one row and broadcast down reads, at `(r, j)`, the
bias at `j`, as the reference's two broadcasts do. So stage by stage the kernel's function is the reference's.
-/

set_option maxRecDepth 16384

noncomputable section

namespace Cert.KernelIdeal.Gcn

open Cert.KernelIdeal Cert.KernelIdeal.Gen Idealize.ShloMosaic Idealize.ShloMosaic.TcCoe Idealize.ShloMosaic.ValueIdx
open Cert.ReferenceIdeal.ReadP

/-! ## The graph part: the same operations -/

section Graph

variable {F : FTy → Type} [FloatOps F] (e : (⟨S2x1600000, .i32⟩ : BufTy).Contents (Elt F))

/-- The first layer's aggregation is the reference's, applied to the same projected rows. -/
theorem agg64_eq (x0 : (⟨S100000x128, .f32⟩ : BufTy).Contents (Elt F)) (x2 : (⟨S128x64, .f32⟩ : BufTy).Contents (Elt F)) :
    agg64 e (val_main_v30 (F := F) x0 x2) = val_main_v43 (F := F) x0 e x2 := rfl

/-- The second layer's aggregation is the reference's (its weights are the first layer's, computed again). -/
theorem agg16_eq (x0 : (⟨S100000x128, .f32⟩ : BufTy).Contents (Elt F)) (x2 : (⟨S128x64, .f32⟩ : BufTy).Contents (Elt F))
    (x3 : (⟨S64, .f32⟩ : BufTy).Contents (Elt F)) (x4 : (⟨S64x16, .f32⟩ : BufTy).Contents (Elt F)) :
    agg16 e (val_main_v71 (F := F) x0 e x2 x3 x4) = val_main_v84 (F := F) x0 e x2 x3 x4 := rfl

end Graph

/-! ## The dense part, over the extended reals -/

/-- The first projection is the reference's `dot_general`: entry by entry the same sum. -/
theorem proj1_eq (x : FVec Ideal S100000x128 .f32) (w1 : FVec Ideal S128x64 .f32) :
    prod1 x w1 = val_main_v30 (F := Ideal) x w1 := by
  funext i
  rw [val_main_v30_apply]
  refine Finset.sum_congr rfl fun k _ => ?_
  have el : xIdx1 i k = lidx_main_v30 i k := funext fun a => match a with | ⟨0, _⟩ => rfl | ⟨1, _⟩ => rfl
  have er : wIdx1 i k = ridx_main_v30 i k := funext fun a => match a with | ⟨0, _⟩ => rfl | ⟨1, _⟩ => rfl
  rw [el, er]

/-- The second projection is the reference's `dot_general` of the reference's hidden features. -/
theorem proj2_eq (x : FVec Ideal S100000x128 .f32) (e : (⟨S2x1600000, .i32⟩ : BufTy).Contents (Elt Ideal)) (w1 : FVec Ideal S128x64 .f32)
    (b1 : FVec Ideal S64 .f32) (w2 : FVec Ideal S64x16 .f32) :
    prod3 (val_main_v47 (F := Ideal) x e w1 b1) w2 = val_main_v71 (F := Ideal) x e w1 b1 w2 := by
  funext i
  rw [val_main_v71_apply]
  refine Finset.sum_congr rfl fun k _ => ?_
  have el : xIdx3 i k = lidx_main_v71 i k := funext fun a => match a with | ⟨0, _⟩ => rfl | ⟨1, _⟩ => rfl
  have er : wIdx3 i k = ridx_main_v71 i k := funext fun a => match a with | ⟨0, _⟩ => rfl | ⟨1, _⟩ => rfl
  rw [el, er]

/-- The first bias and the rectifier: the bias as one row read at `(0, j)` is the reference's two broadcasts read at
    `(r, j)`, and the zero splat is the reference's broadcast zero. -/
theorem biasRelu_eq (a : FVec Ideal S100000x64 .f32) (b1 : FVec Ideal S64 .f32) :
    biasRelu1 a (shapeCast S1x64 b1 shapeCasts_S64_S1x64)
      = maximumf (addf a (val_main_v45 (F := Ideal) b1)) (val_main_call1_v0 (F := Ideal)) := by
  funext i
  show max (a i + shapeCast S1x64 b1 shapeCasts_S64_S1x64 (ix2 (0 : Fin 1) (⟨(i 1).val, (i 1).isLt⟩ : Fin 64))) (Ideal.ofBits .f32 0x00000000#32)
    = max (a i + val_main_v45 (F := Ideal) b1 i) (val_main_call1_v0 (F := Ideal) i)
  rw [shapeCast_a_1a_apply, val_main_v45_apply, val_main_v44_apply, val_main_call1_v0_apply]
  have eb : (ix1 (⟨(i 1).val, (i 1).isLt⟩ : Fin 64) : S64.Idx) = idx_main_v44 (idx_main_v45 i) :=
    funext fun a => match a with | ⟨0, _⟩ => rfl
  rw [eb]
  rfl

/-- The second bias: likewise. -/
theorem biasAdd_eq (a : FVec Ideal S100000x16 .f32) (b2 : FVec Ideal S16 .f32) :
    biasAdd4 a (shapeCast S1x16 b2 shapeCasts_S16_S1x16) = addf a (val_main_v86 (F := Ideal) b2) := by
  funext i
  show a i + shapeCast S1x16 b2 shapeCasts_S16_S1x16 (ix2 (0 : Fin 1) (⟨(i 1).val, (i 1).isLt⟩ : Fin 16))
    = a i + val_main_v86 (F := Ideal) b2 i
  rw [shapeCast_a_1a_apply, val_main_v86_apply, val_main_v85_apply]
  have eb : (ix1 (⟨(i 1).val, (i 1).isLt⟩ : Fin 16) : S16.Idx) = idx_main_v85 (idx_main_v86 i) :=
    funext fun a => match a with | ⟨0, _⟩ => rfl
  rw [eb]

/-! ## The whole -/

/-- THE TWO LAYERS ARE THE REFERENCE'S RESULT, as functions of the six arguments. -/
theorem gcn_eq (x : FVec Ideal S100000x128 .f32) (e : (⟨S2x1600000, .i32⟩ : BufTy).Contents (Elt Ideal)) (w1 : FVec Ideal S128x64 .f32)
    (b1 : FVec Ideal S64 .f32) (w2 : FVec Ideal S64x16 .f32) (b2 : FVec Ideal S16 .f32) :
    gcn x e w1 b1 w2 b2 = val_main_v87 (F := Ideal) x e w1 b1 w2 b2 := by
  have h43 : agg64 e (prod1 x w1) = val_main_v43 (F := Ideal) x e w1 := by
    rw [proj1_eq]; exact agg64_eq e x w1
  have h47 : biasRelu1 (agg64 e (prod1 x w1)) (shapeCast S1x64 b1 shapeCasts_S64_S1x64) = val_main_v47 (F := Ideal) x e w1 b1 := by
    rw [h43, biasRelu_eq]; rfl
  have h84 : agg16 e (prod3 (biasRelu1 (agg64 e (prod1 x w1)) (shapeCast S1x64 b1 shapeCasts_S64_S1x64)) w2)
      = val_main_v84 (F := Ideal) x e w1 b1 w2 := by
    rw [h47, proj2_eq]; exact agg16_eq e x w1 b1 w2
  show biasAdd4 (agg16 e (prod3 (biasRelu1 (agg64 e (prod1 x w1)) (shapeCast S1x64 b1 shapeCasts_S64_S1x64)) w2))
      (shapeCast S1x16 b2 shapeCasts_S16_S1x16) = _
  rw [h84, biasAdd_eq]
  rfl

end Cert.KernelIdeal.Gcn

end
-- ==== Proof.lean ====
/-
  A two-layer graph convolution on 100000 nodes and 1600000 edges, against its plain reference.

  Both programs take node features `x` (100000 × 128), an edge list `e` (2 × 1600000 node numbers), and the two layers'
  weights and biases `w1` (128 × 64), `b1` (64), `w2` (64 × 16), `b2` (16). Each appends a self loop to every node,
  counts every node's degree over the target endpoints, weighs every edge by the product of its endpoints' inverse square
  roots of the degree (zero where the degree is not positive), and computes

      h   = max (A (x · w1) + b1) 0,        out = A (h · w2) + b2,

  where `A` gathers rows at the edges' sources, scales each by its edge's weight and scatter-adds them over the targets.

  The kernel's program runs `A` and everything about the graph on the host, exactly as the reference does, and the four
  dense steps as four kernel regions of fifty row blocks each: `x · w1`; the bias row and the rectifier; `h · w2`; the
  second bias row. Over the extended reals a change of float format is the identity, a block's product into a zero
  accumulator is the sum over the contracted axis, and the fifty blocks are the restrictions of one function of the whole
  arrays; so each region leaves the same array as the reference's `dot_general`, broadcast-and-add, and `maximum`. The
  equality needs no law beyond reading both sides entry by entry: no sum is reordered and nothing is distributed, so the
  finiteness of the inputs is not used.

  `frame_Kernel` and `frame_KernelIdeal` are the launch of the nine segments (five host stretches, four regions) with every
  argument read back through the boundaries to its launch contents; `frame_ReferenceIdeal` is the reference's run with its
  result dropped; `preserves_Kernel_KernelIdeal` has no conjunct (the idealization rewrote nothing); and
  `algebraic_KernelIdeal_ReferenceIdeal` sets the kernel's run, its result array computed from the last region back to the
  launch contents, beside the reference's run, the two results one function of arguments that agree.
-/
import proofs.«161350_j7997229105681_1_alg».proof.Defs
import proofs.«161350_j7997229105681_1_alg».proof.Proof.Gen.Kernel
import proofs.«161350_j7997229105681_1_alg».proof.Proof.Gen.Kernel.Skeleton
import proofs.«161350_j7997229105681_1_alg».proof.Proof.Gen.Kernel.Launch
import proofs.«161350_j7997229105681_1_alg».proof.Proof.Gen.Kernel.Points
import proofs.«161350_j7997229105681_1_alg».proof.Proof.Gen.Kernel.Frame
import proofs.«161350_j7997229105681_1_alg».proof.Proof.Gen.KernelIdeal
import proofs.«161350_j7997229105681_1_alg».proof.Proof.Gen.KernelIdeal.Skeleton
import proofs.«161350_j7997229105681_1_alg».proof.Proof.Gen.KernelIdeal.Launch
import proofs.«161350_j7997229105681_1_alg».proof.Proof.Gen.KernelIdeal.Points
import proofs.«161350_j7997229105681_1_alg».proof.Proof.Gen.KernelIdeal.Frame
import proofs.«161350_j7997229105681_1_alg».proof.Proof.Gen.ReferenceIdeal
import proofs.«161350_j7997229105681_1_alg».proof.Proof.Gen.Pre_finite_inputs
import proofs.«161350_j7997229105681_1_alg».proof.Proof.RefRun
import proofs.«161350_j7997229105681_1_alg».proof.Proof.RefRead
import proofs.«161350_j7997229105681_1_alg».proof.Proof.Bridge
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- The idealized program runs and keeps its arguments. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing, so there is nothing to restate. -/
theorem preserves : Cert.preserves_Kernel_KernelIdeal := trivial

/-- Both programs end with the two layers' function of the arguments in their result arrays. -/
theorem algebraic : Cert.algebraic_KernelIdeal_ReferenceIdeal := by
  intro m ρ m' ρ' _ hagree
  refine ⟨fun c => Cert.KernelIdeal.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Gcn.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v87_eq, (hagree c).1, (hagree c).2.1, (hagree c).2.2.1, (hagree c).2.2.2.1,
    (hagree c).2.2.2.2.1, (hagree c).2.2.2.2.2]
  exact (Cert.KernelIdeal.Gcn.gcn_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
